-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S512x128 : Shape := ⟨2, ![512, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S131072x128 .f32) (main_arg1 : FVec F S512x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S131072x128 : Shape := ⟨2, ![131072, 128]⟩
abbrev S512x128 : Shape := ⟨2, ![512, 128]⟩
abbrev S131072x512 : Shape := ⟨2, ![131072, 512]⟩
abbrev S2048x128 : Shape := ⟨2, ![2048, 128]⟩
abbrev S2048x512 : Shape := ⟨2, ![2048, 512]⟩
abbrev S2048 : Shape := ⟨1, ![2048]⟩
abbrev S2048x1 : Shape := ⟨2, ![2048, 1]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S131072x512, .f32⟩
  | .local _ .vmem, ⟨0, _⟩ => ⟨S2048x128, .f32⟩
  | .local _ .vmem, ⟨1, _⟩ => ⟨S2048x128, .f32⟩
  | .local _ .vmem, ⟨2, _⟩ => ⟨S512x128, .f32⟩
  | .local _ .vmem, ⟨3, _⟩ => ⟨S2048x512, .f32⟩
  | .local _ .vmem, ⟨4, _⟩ => ⟨S2048x512, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  broadcasts_S2048x1_S2048x128 : S2048x1.Broadcasts S2048x128
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  inb_S2048x512_S2048x512_0_0 : ∀ a, (![0, 0] : Fin 2 → Nat) a + S2048x512.size a ≤ S2048x512.size a
  h_S2048x512 : 0 < S2048x512.numel
  dot_S2048x128_S512x128_S2048x512_1_1_0_0_n_n_wf : DotDims.WF S2048x128 S512x128 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S131072x512.size a
  hwx0_2 : ∀ i : grid0.Coords, EltTy.bits .f32 = 32 ∨ (Rect.block (s := S131072x512) S2048x512.size (cc0_transform_2 i) (hinb0_2 i)).WholeWords (EltTy.packing .f32)

variable [Facts₀]

def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x128 : Shape := ⟨2, ![131072, 128]⟩
abbrev S512x128 : Shape := ⟨2, ![512, 128]⟩
abbrev S_ : Shape := ⟨0, ![]⟩
abbrev S131072 : Shape := ⟨1, ![131072]⟩
abbrev S131072x1 : Shape := ⟨2, ![131072, 1]⟩
abbrev S512 : Shape := ⟨1, ![512]⟩
abbrev S512x1 : Shape := ⟨2, ![512, 1]⟩
abbrev S131072x512 : Shape := ⟨2, ![131072, 512]⟩

abbrev nBuf : Space → Nat
  | .hbm => 28
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S131072x128, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S131072x1, .f32⟩
  | .hbm, ⟨7, _⟩ => ⟨S_, .f32⟩
  | .hbm, ⟨8, _⟩ => ⟨S131072x1, .f32⟩
  | .hbm, ⟨9, _⟩ => ⟨S131072x1, .f32⟩
  | .hbm, ⟨10, _⟩ => ⟨S131072x128, .f32⟩
  | .hbm, ⟨11, _⟩ => ⟨S131072x128, .f32⟩
  | .hbm, ⟨12, _⟩ => ⟨S512x128, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S512x128, .f32⟩
  | .hbm, ⟨21, _⟩ => ⟨S512x128, .f32⟩
  | .hbm, ⟨22, _⟩ => ⟨S131072x512, .f32⟩
  | .hbm, ⟨23, _⟩ => ⟨S_, .f32⟩
  | .hbm, ⟨24, _⟩ => ⟨S131072x512, .f32⟩
  | .hbm, ⟨25, _⟩ => ⟨S131072x512, .f32⟩
  | .hbm, ⟨26, _⟩ => ⟨S131072x512, .f32⟩
  | .hbm, ⟨27, _⟩ => ⟨S131072x512, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  reducesTo_S512x128_S512_d1 : S512x128.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S_S131072x512 : S_.BroadcastsInDim S131072x512 (![] : Fin 0 → Fin S131072x512.rank)
  dot_S131072x128_S512x128_S131072x512_1_1_0_0_n_n_wf : DotDims.WF S131072x128 S512x128 S131072x512 [1] [1] [0] [0] [] []

variable [Facts₀]

def dot_S131072x128_S512x128_S131072x512_1_1_0_0_n_n : DotDims S131072x128 S512x128 S131072x512 where
  lhsContracting := [1]
  rhsContracting := [1]
  lhsNonContracting := [0]
  rhsNonContracting := [0]
  lhsBatch := []
  rhsBatch := []
  wf := dot_S131072x128_S512x128_S131072x512_1_1_0_0_n_n_wf

class Facts : Prop extends Facts₀ where

variable [Facts]
-- ==== Proof.LibRowProduct.lean ====
/-
  Rows against rows: a matrix product whose right operand is contracted on its LAST axis, read at an entry.

  For the dimension numbers `⟨[1], [1], [0], [0], [], []⟩` (an M×K operand times an N×K operand, no batch axis:
  `A · Bᵀ`, every row of the left operand paired with every row of the right one), the product accumulated into a zero
  array has, at entry (p, q), the value Σ_k lhs (p, k) · rhs (q, k) on the extended reals: no rounding and no order of
  summation is left in it. The statement is generic in the three extents and in the operands' float formats (a change of
  format is the identity on the extended reals); a printed dimension record with these six lists IS
  `DotDims.transposedRhs M K N` (its well-formedness proof is a proposition), so the lemma applies to it as it stands.
-/
import Idealize.ShloMosaic.PureOps.Ideal.Laws
import Idealize.ShloMosaic.Lib.ValueIdx

namespace Idealize.ShloMosaic.RowProduct

open Idealize.ShloMosaic Idealize.ShloMosaic.ValueIdx

/-- The left operand's row coordinate at output entry `i` is `i`'s row. -/
theorem lhs_row (M K N : Nat) (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction index. -/
theorem lhs_col (M K N : Nat) (i : (⟨2, ![M, N]⟩ : Shape).Idx) (c : (DotDims.transposedRhs M K N).contr.Idx) :
    ((DotDims.transposedRhs M K N).lhsIdx i c 1).val = (c ⟨0, Nat.one_pos⟩).val :=
  (DotDims.transposedRhs M K N).lhsIdx_val_of_single rfl i c

/-- The right operand's row coordinate at output entry `i` is `i`'s COLUMN. -/
theorem rhs_row (M K N : Nat) (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction index. -/
theorem rhs_col (M K N : Nat) (i : (⟨2, ![M, N]⟩ : Shape).Idx) (c : (DotDims.transposedRhs M K N).contr.Idx) :
    ((DotDims.transposedRhs M K N).rhsIdx i c 1).val = (c ⟨0, Nat.one_pos⟩).val :=
  (DotDims.transposedRhs M K N).rhsIdx_val_of_single rfl i c

/-- An M×K by N×K product of rows against rows into the zero array, at entry (p, q), is `Σ_k lhs (p, k) · rhs (q, k)`. -/
theorem matmul_zero_apply {φ₁ φ₂ : FTy} (M K N : Nat) (lhs : FVec Ideal ⟨2, ![M, K]⟩ φ₁) (rhs : FVec Ideal ⟨2, ![N, K]⟩ φ₂)
    (p : Fin M) (q : Fin N) :
    FloatOps.matmul (DotDims.transposedRhs M K N) none lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row M K N _ _
      | ⟨1, _⟩ => exact (lhs_col M K N _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row M K N _ _
      | ⟨1, _⟩ => exact (rhs_col M K N _ _).trans hk)
  rw [el, er]

end Idealize.ShloMosaic.RowProduct
-- ==== Proof.LibUnitRows.lean ====
/-
  Rows divided by their clamped Euclidean length, read at an entry.

  A block of R rows of C entries is normalised row by row: the squares of a row are summed along the row, the sum keeps
  its axis as a column of extent one, the column's square root is bounded below by a floor `lo` (so that a zero row
  divides by the floor, not by zero), the column is spread back over the C entries of each row, and the block is divided
  by it. On the extended reals, entry (r, k) of the result is `x (r, k) / max (√(Σ_j x (r, j)²)) lo`: it depends on row
  `r` alone, and a later change of float format leaves it as it is. The two layout steps on the way — a vector of R sums
  recast as an R×1 column, and an R×1 column spread over R×C — are read at an entry first. Everything is generic in the
  extents R and C and in the floor's bit pattern.
-/
import Idealize.ShloMosaic.PureOps.Ideal.Laws
import Idealize.ShloMosaic.Lib.ValueIdx
import Idealize.ShloMosaic.Lib.Pipeline.Value

noncomputable section

namespace Idealize.ShloMosaic.UnitRows

open Idealize.ShloMosaic Idealize.ShloMosaic.ValueIdx

/-- The Euclidean length of a row of `C` extended reals, bounded below by `lo`. -/
def clampedLength {C : Nat} (lo : EReal) (v : Fin C → EReal) : EReal :=
  max (Ideal.sqrt (∑ k : Fin C, v k * v k)) lo

/-- A row divided, entry by entry, by its clamped length. -/
def unitRow {C : Nat} (lo : EReal) (v : Fin C → EReal) (k : Fin C) : EReal :=
  Ideal.div (v k) (clampedLength lo v)

section Layout
variable {α : Type}

/-- A vector of `a` entries recast as an `a × 1` column reads, at `(i, u)`, the vector at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread over `a × b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : Nat) = 1 then 0 else c.val
    rw [if_pos rfl]

end Layout

/-- The sum of a block's squares along each row, at row `r`, is `Σ_k x (r, k)²`. -/
theorem rowSquares_apply {R C : Nat} (x : FVec Ideal ⟨2, ![R, C]⟩ .f32)
    (hred : (⟨2, ![R, C]⟩ : Shape).Reduces [1] ⟨1, ![R]⟩) (hφ : FKind.Formats .f32)
    (hacc : (0x00000000#32 : BitVec 32) = FKind.add.neutral .f32 hφ) (r : Fin R) :
    multiReduction .add [1] ⟨1, ![R]⟩ (mulf x x) 0x00000000#32 hred hφ hacc (ix1 r)
      = ∑ k : Fin C, x (ix2 r k) * x (ix2 r k) := by
  refine (Ideal.multiReduction_add_single (mulf x x) 0x00000000#32 hred hφ hacc (ix1 r)).trans ?_
  refine Finset.sum_congr rfl fun k _ => ?_
  have e : hred.lift (ix1 r) k = ix2 r k :=
    funext fun a => Fin.ext (by match a with | ⟨0, _⟩ => rfl | ⟨1, _⟩ => rfl)
  rw [e]
  rfl

/-- THE NORMALISED BLOCK at entry `(r, k)`: the entry over its row's clamped length, whatever format the quotient is
    then rounded to. -/
theorem normalised_apply {R C : Nat} {ψ : FTy} (w : BitVec 32) (x : FVec Ideal ⟨2, ![R, C]⟩ .f32)
    (hred : (⟨2, ![R, C]⟩ : Shape).Reduces [1] ⟨1, ![R]⟩) (hφ : FKind.Formats .f32)
    (hacc : (0x00000000#32 : BitVec 32) = FKind.add.neutral .f32 hφ)
    (hcast : (⟨1, ![R]⟩ : Shape).ShapeCasts ⟨2, ![R, 1]⟩) (hb : (⟨2, ![R, 1]⟩ : Shape).Broadcasts ⟨2, ![R, C]⟩)
    (hlt : ψ.bits < FTy.bits .f32) (r : Fin R) (k : Fin C) :
    (truncf ψ (divf x (broadcastTo ⟨2, ![R, C]⟩
        (maximumf (sqrt (shapeCast ⟨2, ![R, 1]⟩ (multiReduction .add [1] ⟨1, ![R]⟩ (mulf x x) 0x00000000#32 hred hφ hacc) hcast))
          (broadcast ⟨2, ![R, 1]⟩ (Scalar.ofBits .f32 w))) hb)) hlt : FVec Ideal ⟨2, ![R, C]⟩ ψ) (ix2 r k)
      = unitRow (Ideal.ofBits .f32 w) (fun j => x (ix2 r j)) k := by
  show Ideal.div (x (ix2 r k)) (broadcastTo ⟨2, ![R, C]⟩
        (maximumf (sqrt (shapeCast ⟨2, ![R, 1]⟩ (multiReduction .add [1] ⟨1, ![R]⟩ (mulf x x) 0x00000000#32 hred hφ hacc) hcast))
          (broadcast ⟨2, ![R, 1]⟩ (Scalar.ofBits .f32 w))) hb (ix2 r k)) = _
  rw [broadcastTo_a1_ab_apply]
  show Ideal.div (x (ix2 r k)) (max (Ideal.sqrt (shapeCast ⟨2, ![R, 1]⟩
        (multiReduction .add [1] ⟨1, ![R]⟩ (mulf x x) 0x00000000#32 hred hφ hacc) hcast (ix2 r (0 : Fin 1)))) (Ideal.ofBits .f32 w)) = _
  rw [shapeCast_a_a1_apply, rowSquares_apply]
  rfl

end Idealize.ShloMosaic.UnitRows

end
-- ==== Proof.Scores.lean ====
/-
  The function both programs compute.

  Each of the 131072 embedding rows and each of the 512 prototype rows (128 entries) is divided by its Euclidean length,
  the length bounded below by the floor `f32 (1e-8)`; the cosine of an embedding and a prototype is the sum over the 128
  entries of the products of the two unit rows; the score at (n, j) is `-(1 - cos (n, j))²`. Everything is read on the
  extended reals. The two literals, the floor and the one, are kept as the bit patterns both programs print: the same
  word on both sides is never evaluated.
-/
import proofs.«129688_j24610162606420_1_alg».proof.Proof.LibUnitRows

noncomputable section

namespace Cert.Scores

open Idealize.ShloMosaic Idealize.ShloMosaic.ValueIdx Idealize.ShloMosaic.UnitRows

/-- The floor under a row's length: the f32 nearest 1e-8. -/
def lengthFloor : EReal := Ideal.ofBits .f32 0x322BCC77#32

/-- The f32 one. -/
def one : EReal := Ideal.ofBits .f32 0x3F800000#32

/-- The cosine of two rows: the sum of the products of their unit rows. -/
def cosine (u v : Fin 128 → EReal) : EReal :=
  ∑ k : Fin 128, unitRow lengthFloor u k * unitRow lengthFloor v k

/-- The score of two rows: minus the square of one minus their cosine. -/
def score (u v : Fin 128 → EReal) : EReal :=
  -((one - cosine u v) * (one - cosine u v))

abbrev Emb : Shape := ⟨2, ![131072, 128]⟩
abbrev Proto : Shape := ⟨2, ![512, 128]⟩
abbrev Out : Shape := ⟨2, ![131072, 512]⟩

/-- THE RESULT ARRAY as one function of the two argument arrays: at (n, j), the score of embedding row `n` and
    prototype row `j`. -/
def scores (E : Emb.Idx → EReal) (P : Proto.Idx → EReal) : Out.Idx → EReal := fun i =>
  score (fun k => E (ix2 (⟨(i 0).val, idx2_lt0 i⟩ : Fin 131072) k)) (fun k => P (ix2 (⟨(i 1).val, idx2_lt1 i⟩ : Fin 512) k))

/-- The result at an entry given by its coordinates. -/
theorem scores_apply (E : Emb.Idx → EReal) (P : Proto.Idx → EReal) (n : Fin 131072) (j : Fin 512) :
    scores E P (ix2 n j) = score (fun k => E (ix2 n k)) (fun k => P (ix2 j k)) := rfl

end Cert.Scores

end
-- ==== Proof.Tile.lean ====
/-
  What one grid point computes, entry by entry.

  The kernel's body takes a block of 2048 embedding rows and the whole 512-row prototype array, normalises the rows of
  each, multiplies rows against rows into a zero accumulator, and stores `0 - (1 - product)²`. At entry (p, q) of the
  block that is the score of block row `p` and prototype row `q`: the row product is the sum over the 128 entries of the
  two unit rows' products, and `0 - y = -y` on the extended reals.
-/
import proofs.«129688_j24610162606420_1_alg».proof.Proof.Gen.KernelIdeal.Skeleton
import proofs.«129688_j24610162606420_1_alg».proof.Proof.LibRowProduct
import proofs.«129688_j24610162606420_1_alg».proof.Proof.LibUnitRows
import proofs.«129688_j24610162606420_1_alg».proof.Proof.Scores

noncomputable section

namespace Cert.Scores

open Cert.KernelIdeal Cert.KernelIdeal.Gen Idealize.ShloMosaic Idealize.ShloMosaic.ValueIdx Idealize.ShloMosaic.UnitRows

/-- The body's last steps over ANY two operands whose rows `p` and `q` are the unit rows of `u` and `v`: the product of
    rows against rows at (p, q) is the cosine of `u` and `v`, and `0 - (1 - cos)²` is their score. -/
theorem negSquare_rowProduct_apply (L : FVec Ideal S2048x128 .bf16) (R : FVec Ideal S512x128 .bf16) (u v : Fin 128 → EReal)
    (p : Fin 2048) (q : Fin 512) (hL : ∀ k : Fin 128, L (ix2 p k) = unitRow lengthFloor u k)
    (hR : ∀ k : Fin 128, R (ix2 q k) = unitRow lengthFloor v k) :
    subf (broadcast S2048x512 (FloatOps.ofBits (F := Ideal) .f32 0x00000000#32))
      (mulf
        (subf (broadcast S2048x512 (FloatOps.ofBits (F := Ideal) .f32 0x3F800000#32))
          (matmul dot_S2048x128_S512x128_S2048x512_1_1_0_0_n_n none L R (constant S2048x512 .f32 0x00000000#32)))
        (subf (broadcast S2048x512 (FloatOps.ofBits (F := Ideal) .f32 0x3F800000#32))
          (matmul dot_S2048x128_S512x128_S2048x512_1_1_0_0_n_n none L R (constant S2048x512 .f32 0x00000000#32)))) (ix2 p q)
      = score u v := by
  have hM : FloatOps.matmul dot_S2048x128_S512x128_S2048x512_1_1_0_0_n_n none L R (constant S2048x512 .f32 0x00000000#32) (ix2 p q) = cosine u v := by
    refine (RowProduct.matmul_zero_apply 2048 128 512 L R p q).trans ?_
    exact Finset.sum_congr rfl fun k _ => by rw [hL k, hR k]
  show Ideal.ofBits .f32 0x00000000#32
      - (one - FloatOps.matmul dot_S2048x128_S512x128_S2048x512_1_1_0_0_n_n none L R (constant S2048x512 .f32 0x00000000#32) (ix2 p q))
        * (one - FloatOps.matmul dot_S2048x128_S512x128_S2048x512_1_1_0_0_n_n none L R (constant S2048x512 .f32 0x00000000#32) (ix2 p q)) = _
  rw [hM, Ideal.ofBits_zero_f32, zero_sub]
  rfl

/-- The body's stored value at entry (p, q): the score of row `p` of the embedding block and row `q` of the prototypes. -/
theorem tile_apply (x0 : FVec Ideal S2048x128 .f32) (x1 : FVec Ideal S512x128 .f32) (p : Fin 2048) (q : Fin 512) :
    k0_pay1 (F := Ideal) x0 x1 (ix2 p q) = score (fun k => x0 (ix2 p k)) (fun k => x1 (ix2 q k)) := by
  unfold k0_pay1
  dsimp only
  exact negSquare_rowProduct_apply _ _ (fun k => x0 (ix2 p k)) (fun k => x1 (ix2 q k)) p q
    (fun k => normalised_apply 0x322BCC77#32 x0 _ _ _ _ _ _ p k)
    (fun k => normalised_apply 0x322BCC77#32 x1 _ _ _ _ _ _ q k)

end Cert.Scores

end
-- ==== Proof.Blocks.lean ====
/-
  From the grid points' blocks to the whole result array.

  Grid point `t` (of 64) stages rows `2048 t … 2048 t + 2047` of the embeddings and the whole prototype array, and writes
  back rows `2048 t … 2048 t + 2047` of the result, all 512 columns. What it writes back is the body's stored value of
  the two staged blocks, which entry by entry is the score of an embedding row and a prototype row: so it is that block
  of the score function of the two argument arrays. The 64 blocks cover the result array (row `r` lies in the block of
  point `r / 2048`), hence the array ends holding the score function.
-/
import proofs.«129688_j24610162606420_1_alg».proof.Proof.Gen.KernelIdeal.Value
import proofs.«129688_j24610162606420_1_alg».proof.Proof.Tile
import Idealize.ShloMosaic.Lib.Pipeline.Value

noncomputable section

namespace Cert.Scores

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps over the 64 grid points: the embeddings' and the result's blocks move down one block of rows
    per point, the prototypes' block stays, and no block moves along the columns. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s embedding block is row `2048 t + p` of the embeddings. -/
theorem emb_block_apply (c : Dev nD) (t : Fin cfg0.N) (p : Fin 2048) (k : Fin 128) (n : Fin 131072)
    (hn : n.val = t.val * 2048 + p.val) :
    (iblk m c 0 t : Vec Ideal S2048x128 .f32) (ix2 p k) = (V m c main_arg0 : S131072x128.Idx → EReal) (ix2 n k) := by
  obtain ⟨e0, e1, -⟩ := block_indices t
  unfold iblk
  rw [View.read_apply]
  show V m c main_arg0 _ = V m c main_arg0 _
  congr 1
  funext a
  apply Fin.ext
  match a with
  | ⟨0, _⟩ => show win0_0.index t (0 : Fin 2) * 2048 + 1 * p.val = n.val; rw [e0, hn]; omega
  | ⟨1, _⟩ => show win0_0.index t (1 : Fin 2) * 128 + 1 * k.val = k.val; rw [e1]; omega

/-- Every point's prototype block is the whole prototype array. -/
theorem proto_block_apply (c : Dev nD) (t : Fin cfg0.N) (q : Fin 512) (k : Fin 128) :
    (iblk m c 1 t : Vec Ideal S512x128 .f32) (ix2 q k) = (V m c main_arg1 : S512x128.Idx → EReal) (ix2 q k) := by
  obtain ⟨-, -, e2, e3, -⟩ := block_indices t
  unfold iblk
  rw [View.read_apply]
  show V m c main_arg1 _ = V m c main_arg1 _
  congr 1
  funext a
  apply Fin.ext
  match a with
  | ⟨0, _⟩ => show win0_1.index t (0 : Fin 2) * 512 + 1 * q.val = q.val; rw [e2]; omega
  | ⟨1, _⟩ => show win0_1.index t (1 : Fin 2) * 128 + 1 * k.val = k.val; rw [e3]; omega

/-- Entry (p, q) of point `t`'s result block is entry (2048 t + p, q) of the result array. -/
theorem out_block_emb (t : Fin cfg0.N) (p : Fin 2048) (q : Fin 512) (n : Fin 131072) (hn : n.val = t.val * 2048 + p.val) :
    ((cfg0.win 2).blk t).view.emb (ix2 p q) = (ix2 n q : S131072x512.Idx) := by
  obtain ⟨-, -, -, -, e4, e5⟩ := block_indices t
  funext a
  apply Fin.ext
  match a with
  | ⟨0, _⟩ => show win0_2.index t (0 : Fin 2) * 2048 + 1 * p.val = n.val; rw [e4, hn]; omega
  | ⟨1, _⟩ => show win0_2.index t (1 : Fin 2) * 512 + 1 * q.val = q.val; rw [e5]; omega

/-- WHAT POINT `t` WRITES BACK is block `t` of the score function of the argument arrays. -/
theorem flushed_eq (c : Dev nD) (t : Fin cfg0.N) :
    (dats m 0 c).flushed 2 t = ((cfg0.win 2).blk t).view.read (Elt Ideal) (scores (V m c main_arg0) (V m c main_arg1)) := by
  rw [Value.flushed2]
  unfold out0_2
  rw [View.canon_unit_zero origin]
  simp only [View.ld_unit_zero (S := S2048x128) origin, View.ld_unit_zero (S := S512x128) origin]
  funext j
  revert j
  show ∀ j : S2048x512.Idx, k0_pay1 (F := Ideal) (iblk m c 0 t) (iblk m c 1 t) j
      = scores (V m c main_arg0) (V m c main_arg1) (((cfg0.win 2).blk t).view.emb j)
  intro j
  obtain ⟨p, q, rfl⟩ : ∃ (p : Fin 2048) (q : Fin 512), j = ix2 p q := ⟨j 0, j 1, eq_ix2 j⟩
  have ht : t.val < 64 := lt_of_lt_of_eq t.isLt (show cfg0.N = 64 from N_0)
  have hp : p.val < 2048 := p.isLt
  obtain ⟨n, hn⟩ : ∃ n : Fin 131072, n.val = t.val * 2048 + p.val := ⟨⟨t.val * 2048 + p.val, by omega⟩, rfl⟩
  refine (tile_apply (iblk m c 0 t) (iblk m c 1 t) p q).trans ?_
  refine Eq.trans ?_ (congrArg (scores (V m c main_arg0) (V m c main_arg1)) (out_block_emb t p q n hn)).symm
  exact congrArg₂ score (funext fun k => emb_block_apply m c t p k n hn) (funext fun k => proto_block_apply m c t q k)

/-- An index of the result array is in point `t`'s block iff each coordinate is in the block's range on its axis. -/
theorem mem_block (t : Fin cfg0.N) (i : S131072x512.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v0).slice (win0_2.rect t)).set ↔ _
  rw [View.set_slice_whole, Rect.mem_set_unit]
  exact Iff.rfl

/-- THE BLOCKS COVER THE ARRAY: row `r` is in the block of point `r / 2048`. -/
theorem covered (i : S131072x512.Idx) :
    ∃ t : Fin cfg0.N, (cfg0.win 2).flush t = true ∧ i ∈ ((cfg0.win 2).blk t).view.set := by
  have hi0 : (i 0).val < 131072 := (i 0).isLt
  have hi1 : (i 1).val < 512 := (i 1).isLt
  obtain ⟨t, ht⟩ : ∃ t : Fin cfg0.N, t.val = (i 0).val / 2048 :=
    ⟨⟨(i 0).val / 2048, by rw [show cfg0.N = 64 from N_0]; omega⟩, rfl⟩
  obtain ⟨-, -, -, -, e4, e5⟩ := block_indices t
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    rw [e4, ht]; omega
  | ⟨1, _⟩ =>
    show win0_2.index t (1 : Fin 2) * 512 ≤ (i 1).val ∧ (i 1).val < win0_2.index t (1 : Fin 2) * 512 + 512
    rw [e5]; omega

/-- THE RESULT ARRAY after the run is the score function of the argument arrays. -/
theorem final (c : Dev nD) :
    (dats m 0 c).arrAt 2 cfg0.N = scores (V m c main_arg0) (V m c main_arg1) :=
  (dats m 0 c).arrAt_eq_of_cover 2 (scores (V m c main_arg0) (V m c main_arg1)) (fun t _ => flushed_eq m c t) covered

/-- The kernel's run, read: the result array at the score function of the arguments, the arguments unchanged. -/
theorem run : θ_run defs (onTc (τ := τ) (main (F := Ideal))) ⟨m, fun _ => 0, ρ⟩ fun r => ∀ c : Dev nD,
      r.2.mem ((c : Thread nD τ).loc main_v0)
        = scores (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Scores

end
-- ==== Proof.Reference.lean ====
/-
  The reference computes the score function.

  The reference's run ends at its last stage, read one operation at a time: a negation of the square of one minus a
  `dot_general` over the 128 entries of the two normalised arrays, each array divided by its rows' lengths (the root of
  the host's sum of squares, started from zero) bounded below by the floor. Entry by entry that is the score of the two
  rows: the index maps the stages read through are the rows' own coordinates, the host's quotient, root, maximum and
  negation are the extended reals' own, and the sum's zero start adds nothing.
-/
import proofs.«129688_j24610162606420_1_alg».proof.Proof.Gen.ReferenceIdeal.Read
import proofs.«129688_j24610162606420_1_alg».proof.Proof.Scores

noncomputable section

namespace Cert.Scores

open Cert.ReferenceIdeal Cert.ReferenceIdeal.Read Idealize.ShloMosaic Idealize.ShloMosaic.ValueIdx Idealize.ShloMosaic.UnitRows

/-! ## The stages' index maps at coordinates -/

theorem emb_of_entry (n : Fin 131072) (j : Fin 512) (k : Fin 128) : lidx_main_v10 (ix2 n j) k = ix2 n k :=
  funext fun a => Fin.ext (by match a with | ⟨0, _⟩ => rfl | ⟨1, _⟩ => rfl)
theorem proto_of_entry (n : Fin 131072) (j : Fin 512) (k : Fin 128) : ridx_main_v10 (ix2 n j) k = ix2 j k :=
  funext fun a => Fin.ext (by match a with | ⟨0, _⟩ => rfl | ⟨1, _⟩ => rfl)
theorem emb_len_of_entry (n : Fin 131072) (k : Fin 128) : idx_main_v3 (ix2 n k) = ix2 n (0 : Fin 1) :=
  funext fun a => Fin.ext (by match a with | ⟨0, _⟩ => rfl | ⟨1, _⟩ => rfl)
theorem emb_sum_of_len (n : Fin 131072) : idx_main_call0_v2 (ix2 n (0 : Fin 1)) = ix1 n :=
  funext fun a => Fin.ext (by match a with | ⟨0, _⟩ => rfl)
theorem emb_of_sum (n : Fin 131072) (k : Fin 128) : idx_main_call0_v1 (ix1 n) k = ix2 n k :=
  funext fun a => Fin.ext (by match a with | ⟨0, _⟩ => rfl | ⟨1, _⟩ => rfl)
theorem proto_len_of_entry (j : Fin 512) (k : Fin 128) : idx_main_v8 (ix2 j k) = ix2 j (0 : Fin 1) :=
  funext fun a => Fin.ext (by match a with | ⟨0, _⟩ => rfl | ⟨1, _⟩ => rfl)
theorem proto_sum_of_len (j : Fin 512) : idx_main_call1_v2 (ix2 j (0 : Fin 1)) = ix1 j :=
  funext fun a => Fin.ext (by match a with | ⟨0, _⟩ => rfl)
theorem proto_of_sum (j : Fin 512) (k : Fin 128) : idx_main_call1_v1 (ix1 j) k = ix2 j k :=
  funext fun a => Fin.ext (by match a with | ⟨0, _⟩ => rfl | ⟨1, _⟩ => rfl)

/-! ## The normalised arrays -/

/-- The reference's normalised embeddings at (n, k): entry `k` of the unit row of embedding row `n`. -/
theorem unit_emb (E : (⟨S131072x128, .f32⟩ : BufTy).Contents (Elt Ideal)) (n : Fin 131072) (k : Fin 128) :
    val_main_v4 (F := Ideal) E (ix2 n k) = unitRow lengthFloor (fun j => E (ix2 n j)) k := by
  rw [val_main_v4_apply, val_main_v3_apply, emb_len_of_entry, val_main_v2_apply, val_main_v0_apply, val_main_call0_v2_apply,
    emb_sum_of_len, val_main_call0_v1_apply, val_main_v1_apply, val_main_cst_apply, val_main_call0_cst_apply]
  simp only [emb_of_sum, val_main_call0_v0_apply, Ideal.hostDivf_def, Ideal.maximumf_def, Ideal.hostUnary_sqrt_def,
    Ideal.ofBits_def, Ideal.ofBits_zero_f32, zero_add, Ideal.mulf_def]
  rfl

/-- The reference's normalised prototypes at (j, k): entry `k` of the unit row of prototype row `j`. -/
theorem unit_proto (P : (⟨S512x128, .f32⟩ : BufTy).Contents (Elt Ideal)) (j : Fin 512) (k : Fin 128) :
    val_main_v9 (F := Ideal) P (ix2 j k) = unitRow lengthFloor (fun i => P (ix2 j i)) k := by
  rw [val_main_v9_apply, val_main_v8_apply, proto_len_of_entry, val_main_v7_apply, val_main_v5_apply, val_main_call1_v2_apply,
    proto_sum_of_len, val_main_call1_v1_apply, val_main_v6_apply, val_main_cst_0_apply, val_main_call1_cst_apply]
  simp only [proto_of_sum, val_main_call1_v0_apply, Ideal.hostDivf_def, Ideal.maximumf_def, Ideal.hostUnary_sqrt_def,
    Ideal.ofBits_def, Ideal.ofBits_zero_f32, zero_add, Ideal.mulf_def]
  rfl

/-! ## The last stage -/

/-- THE REFERENCE'S RESULT is the score function of the two argument arrays. -/
theorem reference_eq (E : (⟨S131072x128, .f32⟩ : BufTy).Contents (Elt Ideal)) (P : (⟨S512x128, .f32⟩ : BufTy).Contents (Elt Ideal)) :
    val_main_v14 (F := Ideal) E P = scores E P := by
  funext i
  obtain ⟨n, j, rfl⟩ : ∃ (n : Fin 131072) (j : Fin 512), i = ix2 n j := ⟨i 0, i 1, eq_ix2 i⟩
  rw [val_main_v14_apply, val_main_v13_apply, val_main_v12_apply, val_main_v11_apply, val_main_cst_1_apply, val_main_v10_apply]
  simp only [emb_of_entry, proto_of_entry, unit_emb, unit_proto, Ideal.hostNegf_def, Ideal.negf_def, Ideal.mulf_def,
    Ideal.subf_def, Ideal.ofBits_def]
  rfl

end Cert.Scores

end
-- ==== Proof.lean ====
/-
  Cosine scores of 131072 embeddings against 512 prototypes: the tiled kernel against the plain jnp reference.

  Both programs divide every embedding row and every prototype row (128 entries) by its Euclidean length bounded below by
  `f32 (1e-8)`, take the product of rows against rows, and return `-(1 - cos)²`. The kernel does it 2048 embedding rows
  at a time over a grid of 64 points, rounds the unit rows to bf16 before the product (the identity on the extended reals),
  accumulates the product into a zero array and writes `0 - (1 - cos)²`; the reference does it on the whole arrays with a
  `dot_general` and a negation. On the extended reals the two results are one function of the arguments, entry by entry
  (`Cert.Scores.scores`): the sums range over the same 128 entries, the quotients, roots and maxima are the same
  operations, a sum started from zero is the sum, and `0 - y = -y`. No law used needs finiteness, so the precondition is
  never opened.

  The three frames are the generated ones (the reference's is its generated run with the result dropped); the ideal pass
  rewrote nothing, so the idealization conjunct is `True`.
-/
import proofs.«129688_j24610162606420_1_alg».proof.Defs
import proofs.«129688_j24610162606420_1_alg».proof.Proof.Gen.Kernel
import proofs.«129688_j24610162606420_1_alg».proof.Proof.Gen.Kernel.Skeleton
import proofs.«129688_j24610162606420_1_alg».proof.Proof.Gen.Kernel.Launch
import proofs.«129688_j24610162606420_1_alg».proof.Proof.Gen.Kernel.Points
import proofs.«129688_j24610162606420_1_alg».proof.Proof.Gen.Kernel.Frame
import proofs.«129688_j24610162606420_1_alg».proof.Proof.Gen.KernelIdeal
import proofs.«129688_j24610162606420_1_alg».proof.Proof.Gen.KernelIdeal.Skeleton
import proofs.«129688_j24610162606420_1_alg».proof.Proof.Gen.KernelIdeal.Launch
import proofs.«129688_j24610162606420_1_alg».proof.Proof.Gen.KernelIdeal.Points
import proofs.«129688_j24610162606420_1_alg».proof.Proof.Gen.KernelIdeal.Frame
import proofs.«129688_j24610162606420_1_alg».proof.Proof.Gen.ReferenceIdeal
import proofs.«129688_j24610162606420_1_alg».proof.Proof.Gen.KernelIdeal.Value
import proofs.«129688_j24610162606420_1_alg».proof.Proof.Gen.ReferenceIdeal.Run
import proofs.«129688_j24610162606420_1_alg».proof.Proof.Gen.ReferenceIdeal.Read
import proofs.«129688_j24610162606420_1_alg».proof.Proof.Gen.Pre_finite_inputs
import proofs.«129688_j24610162606420_1_alg».proof.Proof.Blocks
import proofs.«129688_j24610162606420_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The kernel's result array ends at the score function of its arguments (the blocks, covered) and the reference's at
    its last stage, which is the score function of ITS arguments; the arguments agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.Scores.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v14_eq _ _).trans (Cert.Scores.reference_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
